-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x128 : Shape := ⟨2, ![1600000, 128]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128 .f32) (main_arg9 : FVec F S128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : FVec F S1600000x128 .f32) (main_arg2 : IVec S2x1600000 32) (main_arg3 : FVec F S256x128 .f32) (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg1
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S1600000x128 : Shape := ⟨2, ![1600000, 128]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x128 : Shape := ⟨2, ![1, 128]⟩
abbrev S4000x128 : Shape := ⟨2, ![4000, 128]⟩
abbrev S4000 : Shape := ⟨1, ![4000]⟩
abbrev S4000x1 : Shape := ⟨2, ![4000, 1]⟩

abbrev nBuf : Space → Nat
  | .hbm => 25
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S1600000x128, .f32⟩
  | .hbm, ⟨2, _⟩ => ⟨S2x1600000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S100000x128, .f32⟩
  | .hbm, ⟨15, _⟩ => ⟨S1600000x1, .i32⟩
  | .hbm, ⟨16, _⟩ => ⟨S100000x128, .f32⟩
  | .hbm, ⟨17, _⟩ => ⟨S128x128, .f32⟩
  | .hbm, ⟨18, _⟩ => ⟨S128x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S4000x128, .f32⟩
  | .local _ .vmem, ⟨14, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x1600000_S1x1600000_1_0 : S2x1600000.Slices ![1, 0] S1x1600000
  shapeCasts_S1x1600000_S1600000 : S1x1600000.ShapeCasts S1600000
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  slices_S256x128_S128x128_0_0 : S256x128.Slices ![0, 0] S128x128
  slices_S256x128_S128x128_128_0 : S256x128.Slices ![128, 0] S128x128
  bcast_S128_S1x128_1 : S128.BroadcastsInDim S1x128 (![1] : Fin 1 → Fin S1x128.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S100000x128.size a
  hwx0_11 : ∀ i : grid0.Coords, EltTy.bits .f32 = 32 ∨ (Rect.block (s := S100000x128) S4000x128.size (cc0_transform_11 i) (hinb0_11 i)).WholeWords (EltTy.packing .f32)

variable [Facts₀]

def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S4000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000x128 : Shape := ⟨2, ![1600000, 128]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x256 : Shape := ⟨2, ![100000, 256]⟩
abbrev S1x128 : Shape := ⟨2, ![1, 128]⟩
abbrev S100000 : Shape := ⟨1, ![100000]⟩
abbrev S100000x1 : Shape := ⟨2, ![100000, 1]⟩

abbrev nBuf : Space → Nat
  | .hbm => 65
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x128, .f32⟩
  | .hbm, ⟨2, _⟩ => ⟨S2x1600000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S100000x128, .f32⟩
  | .hbm, ⟨15, _⟩ => ⟨S1600000x1, .i32⟩
  | .hbm, ⟨16, _⟩ => ⟨S100000x128, .f32⟩
  | .hbm, ⟨17, _⟩ => ⟨S100000x256, .f32⟩
  | .hbm, ⟨18, _⟩ => ⟨S100000x128, .f32⟩
  | .hbm, ⟨19, _⟩ => ⟨S1x128, .f32⟩
  | .hbm, ⟨20, _⟩ => ⟨S100000x128, .f32⟩
  | .hbm, ⟨21, _⟩ => ⟨S100000x128, .f32⟩
  | .hbm, ⟨22, _⟩ => ⟨S_, .f32⟩
  | .hbm, ⟨23, _⟩ => ⟨S100000x128, .f32⟩
  | .hbm, ⟨24, _⟩ => ⟨S100000x128, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S_, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000, .f32⟩
  | .hbm, ⟨38, _⟩ => ⟨S100000x1, .f32⟩
  | .hbm, ⟨39, _⟩ => ⟨S_, .f32⟩
  | .hbm, ⟨40, _⟩ => ⟨S100000x1, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000, .f32⟩
  | .hbm, ⟨47, _⟩ => ⟨S100000x1, .f32⟩
  | .hbm, ⟨48, _⟩ => ⟨S_, .f32⟩
  | .hbm, ⟨49, _⟩ => ⟨S100000x1, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x1, .f32⟩
  | .hbm, ⟨55, _⟩ => ⟨S100000x1, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_cst : Ref sig .tc := ⟨.hbm, 22, rfl⟩
abbrev main_call0_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call1_cst : Ref sig .tc := ⟨.hbm, 29, rfl⟩
abbrev main_call1_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  concatenates_S100000x128_S100000x128_S100000x256_d1 : Shape.Concatenates [S100000x128, S100000x128] S100000x256 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  scatter_S100000x128_S1600000x1_S1600000x128_1_0_0_1_wf : ScatterDims.WF S100000x128 S1600000x1 S1600000x128 [1] [0] [0] 1
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []

variable [Facts₀]

def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.NodeUpdate.lean ====
/-
  The node update, one node at a time, on the extended reals.

  A node's new feature row depends only on that node's own feature row `x` and on the row `a` that the edge features
  aggregate to at that node: three dense layers with a rectifier after the first two, then a normalisation of the row
  to mean zero and unit variance, scaled and shifted coordinate by coordinate.

  The first layer is written here as two products added, `x · Wx + a · Wa`, where `Wx` and `Wa` are the upper and
  the lower half of one 256-row weight matrix. The other way to write it lays `x` and `a` end to end into one row of
  256 coordinates and multiplies once; `sum_halves` is the law that joins the two: a sum over 256 coordinates is the
  sum over the first 128 plus the sum over the last 128. It uses only that addition on the extended reals is
  commutative and associative, so it holds at the infinities as well, and nothing here asks the inputs to be finite.

  The three float constants (zero, 128 and the variance's epsilon) stay the bit patterns both programs print; the same
  pattern on both sides is never evaluated.
-/
import Idealize.ShloMosaic.Lib.ValueIdx
import Idealize.ShloMosaic.PureOps.Ideal.Laws

noncomputable section

open scoped BigOperators

namespace Cert.NodeUpdate

open Idealize.ShloMosaic Idealize.ShloMosaic.ValueIdx

/-- One node's 128 features. -/
abbrev Row : Type := Fin 128 → EReal
/-- A 128 × 128 weight matrix, input coordinate first. -/
abbrev Mat : Type := Fin 128 → Fin 128 → EReal

/-- Row `r` of an array of feature rows. -/
def rowOf {n : Nat} (A : (⟨2, ![n, 128]⟩ : Shape).Idx → EReal) (r : Fin n) : Row := fun k => A (ix2 r k)
/-- A square weight array as a matrix. -/
def matOf (W : (⟨2, ![128, 128]⟩ : Shape).Idx → EReal) : Mat := fun k j => W (ix2 k j)
/-- A bias kept as an array of one row. -/
def biasOf (b : (⟨2, ![1, 128]⟩ : Shape).Idx → EReal) : Row := fun j => b (ix2 0 j)

/-- A dense layer: `x · W + b`. -/
def affine (W : Mat) (b : Row) (x : Row) : Row := fun j => (∑ k, x k * W k j) + b j

/-- The first dense layer, on the node's row and the aggregated row: `x · Wx + a · Wa + b`. -/
def affinePair (Wx Wa : Mat) (b : Row) (x a : Row) : Row :=
  fun j => ((∑ k, x k * Wx k j) + ∑ k, a k * Wa k j) + b j

/-- The rectifier: the larger of the coordinate and zero. -/
def relu (x : Row) : Row := fun j => max (x j) (Ideal.ofBits .f32 0x00000000#32)

/-- The mean of a row: its sum over 128. -/
def mean (o : Row) : EReal := Ideal.div (∑ l, o l) (Ideal.ofBits .f32 0x43000000#32)
/-- The row less its mean. -/
def centred (o : Row) : Row := fun j => o j - mean o
/-- The variance of a row: the mean of the squares of the centred row. -/
def variance (o : Row) : EReal := Ideal.div (∑ l, centred o l * centred o l) (Ideal.ofBits .f32 0x43000000#32)

/-- The normalisation: the centred row over the root of variance plus epsilon, times `g`, plus `b`. -/
def layerNorm (g b : Row) (o : Row) : Row :=
  fun j => centred o j * Ideal.rsqrt (variance o + Ideal.ofBits .f32 0x3727C5AC#32) * g j + b j

/-- The whole update of one node. -/
def update (Wx Wa W1 W2 : Mat) (b0 b1 b2 g b : Row) (x a : Row) : Row :=
  layerNorm g b (affine W2 b2 (relu (affine W1 b1 (relu (affinePair Wx Wa b0 x a)))))

/-- A sum over 256 coordinates is the sum over the first 128 plus the sum over the last 128. -/
theorem sum_halves (f : Fin 256 → EReal) :
    ∑ k : Fin 256, f k = (∑ k : Fin 128, f (Fin.castAdd 128 k)) + ∑ k : Fin 128, f (Fin.natAdd 128 k) :=
  Fin.sum_univ_add (a := 128) (b := 128) f

/-! ## The whole array -/

/-- A bias, scale or shift kept as a vector of 128. -/
def vecOf (b : (⟨1, ![128]⟩ : Shape).Idx → EReal) : Row := fun j => b (ix1 j)
/-- The upper half (rows 0 to 127) of the first layer's 256-row weight matrix: what multiplies the node's own row. -/
def upperOf (W : (⟨2, ![256, 128]⟩ : Shape).Idx → EReal) : Mat := fun k j => W (ix2 (Fin.castAdd 128 k) j)
/-- Its lower half (rows 128 to 255): what multiplies the aggregated row. -/
def lowerOf (W : (⟨2, ![256, 128]⟩ : Shape).Idx → EReal) : Mat := fun k j => W (ix2 (Fin.natAdd 128 k) j)

/-- Every node updated: entry (R, j) of the result is coordinate `j` of the update of row `R` of the node features
    `X` and row `R` of the aggregated edge features `A`. -/
def updateAll (X A : (⟨2, ![100000, 128]⟩ : Shape).Idx → EReal) (W0 : (⟨2, ![256, 128]⟩ : Shape).Idx → EReal)
    (b0 : (⟨1, ![128]⟩ : Shape).Idx → EReal) (W1 : (⟨2, ![128, 128]⟩ : Shape).Idx → EReal)
    (b1 : (⟨1, ![128]⟩ : Shape).Idx → EReal) (W2 : (⟨2, ![128, 128]⟩ : Shape).Idx → EReal)
    (b2 g b : (⟨1, ![128]⟩ : Shape).Idx → EReal) : (⟨2, ![100000, 128]⟩ : Shape).Idx → EReal :=
  fun i => update (upperOf W0) (lowerOf W0) (matOf W1) (matOf W2) (vecOf b0) (vecOf b1) (vecOf b2) (vecOf g) (vecOf b)
    (rowOf X (i 0)) (rowOf A (i 0)) (i 1)

end Cert.NodeUpdate

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.KernelRow.lean ====
/-
  What the kernel's body leaves in one row of its output block, at the ideal values.

  The body sees a block of 4000 node rows `P0`, the matching 4000 rows `P1` of the aggregated edge features, the two
  halves `P2`, `P3` of the first weight matrix, the other two weight matrices `P5`, `P7`, and five rows `P4`, `P6`,
  `P8`, `P9`, `P10` (three biases, the normalisation's scale and shift), each kept as an array of one row. Row `r` of
  what it stores depends on row `r` of `P0` and of `P1` only, and is the node update of those two rows:

  * a matrix product into the zero accumulator, read at entry (r, j), is the sum over the contracted coordinate;
    rounding an operand to sixteen bits changes nothing at the ideal values, and a shape cast to the same shape is
    the identity;
  * a one-row array broadcast down the block reads its own entry in column j at every row;
  * a sum along the lanes of the block, read at row r, is the sum over the 128 entries of row r; cast to a column
    and broadcast back across the lanes it reads the same number at every column of row r.
-/
import proofs.«128939_j38345468018711_1_alg».proof.Proof.Gen.KernelIdeal.Value
import proofs.«128939_j38345468018711_1_alg».proof.Proof.NodeUpdate
import proofs.«128939_j38345468018711_1_alg».proof.Proof.LibDot
import Idealize.ShloMosaic.Lib.Pipeline.Value
import Idealize.ShloMosaic.Lib.ValueIdx
import Idealize.ShloMosaic.PureOps.Ideal.Laws

noncomputable section

open scoped BigOperators

namespace Cert.KernelIdeal.RowValue

open Cert.KernelIdeal Cert.KernelIdeal.Gen Cert.KernelIdeal.Value
open Idealize.ShloMosaic Idealize.ShloMosaic.ValueIdx Cert.NodeUpdate

/-- A one-row array broadcast down the block reads, at row `r` and column `j`, its entry in column `j`. -/
theorem bias_apply (B : Vec Ideal S1x128 .f32) (h1 : S1x128.ShapeCasts S1x128) (h2 : S1x128.Broadcasts S4000x128)
    (r : Fin 4000) (j : Fin 128) :
    broadcastTo S4000x128 (shapeCast S1x128 B h1) h2 (ix2 r j) = B (ix2 0 j) := by
  refine (broadcastTo_apply _ _ (ix2 r j) (ix2 0 j) (fun a => ?_)).trans ?_
  · match a with
    | ⟨0, _⟩ => show 0 = (if (1 : Nat) = 1 then 0 else r.val); rw [if_pos rfl]
    | ⟨1, _⟩ => show j.val = (if (128 : Nat) = 1 then 0 else j.val); rw [if_neg (by decide)]
  · exact shapeCast_apply _ _ (ix2 0 j) (ix2 0 j) rfl

/-- A dense layer of the block: the product with a weight matrix into the zero accumulator plus a broadcast bias row,
    at row `r` and column `j`, is the row's product with column `j` of the matrix plus the bias there. -/
theorem dense_apply {φ₁ φ₂ : FTy} (d : DotDims S4000x128 S128x128 S4000x128)
    (hlc : d.lhsContracting = [1]) (hrc : d.rhsContracting = [0]) (hln : d.lhsNonContracting = [0])
    (hrn : d.rhsNonContracting = [1]) (hlb : d.lhsBatch = []) (hrb : d.rhsBatch = [])
    (X : FVec Ideal S4000x128 φ₁) (W : FVec Ideal S128x128 φ₂) (B : Vec Ideal S1x128 .f32)
    (h1 : S1x128.ShapeCasts S1x128) (h2 : S1x128.Broadcasts S4000x128) (r : Fin 4000) (j : Fin 128) :
    addf (matmul d none X W (constant S4000x128 .f32 0x00000000#32)) (broadcastTo S4000x128 (shapeCast S1x128 B h1) h2) (ix2 r j)
      = (∑ k : Fin 128, X (ix2 r k) * W (ix2 k j)) + B (ix2 0 j) :=
  congrArg₂ (· + ·) (Cert.LibDot.matmul_10_zero_apply d hlc hrc hln hrn hlb hrb none X W r j) (bias_apply B h1 h2 r j)

/-- The three matrix products of the body (the first two layers with their rectifiers, then the third product
    without its bias), at row `r` and column `j`: the twice-rectified hidden row of block row `r` times column `j`
    of the last weight matrix. -/
theorem hidden_apply (P0 P1 : Vec Ideal S4000x128 .f32) (P2 P3 : Vec Ideal S128x128 .f32) (P4 : Vec Ideal S1x128 .f32)
    (P5 : Vec Ideal S128x128 .f32) (P6 : Vec Ideal S1x128 .f32) (P7 : Vec Ideal S128x128 .f32) (r : Fin 4000) (j : Fin 128) :
    k0_pay2 P0 P1 P2 P3 P4 P5 P6 P7 (ix2 r j)
      = ∑ k : Fin 128, relu (affine (matOf P5) (biasOf P6)
          (relu (affinePair (matOf P2) (matOf P3) (biasOf P4) (rowOf P0 r) (rowOf P1 r)))) k * matOf P7 k j := by
  unfold k0_pay2
  refine (Cert.LibDot.matmul_10_zero_apply _ rfl rfl rfl rfl rfl rfl none _ _ r j).trans ?_
  refine Finset.sum_congr rfl fun k _ => congrArg (· * P7 (ix2 k j)) ?_
  refine congrArg (max · (Ideal.ofBits .f32 0x00000000#32)) ?_
  refine (dense_apply _ rfl rfl rfl rfl rfl rfl _ _ P6 _ _ r k).trans ?_
  refine congrArg (· + P6 (ix2 0 k)) (Finset.sum_congr rfl fun k' _ => congrArg (· * P5 (ix2 k' k)) ?_)
  refine congrArg (max · (Ideal.ofBits .f32 0x00000000#32)) ?_
  refine congrArg₂ (· + ·) (congrArg₂ (· + ·) ?_ ?_) (bias_apply P4 _ _ r k')
  · refine (Cert.LibDot.matmul_10_zero_apply _ rfl rfl rfl rfl rfl rfl none _ _ r k').trans ?_
    exact Finset.sum_congr rfl fun q _ => congrArg (P0 (ix2 r q) * ·) (congrFun (shapeCast_self P2 _) (ix2 q k'))
  · refine (Cert.LibDot.matmul_10_zero_apply _ rfl rfl rfl rfl rfl rfl none _ _ r k').trans ?_
    exact Finset.sum_congr rfl fun q _ => congrArg₂ (· * ·) (congrFun (shapeCast_self P1 _) (ix2 r q))
      (congrFun (shapeCast_self P3 _) (ix2 q k'))

/-! ## The normalisation of a block row -/

/-- The index a lane sum inserts at row `r` for lane `l` is (r, l). -/
theorem lift_row (h : S4000x128.Reduces [1] S4000) (r : Fin 4000) (l : Fin 128) : h.lift (ix1 r) l = ix2 r l := by
  funext a; apply Fin.ext
  match a with
  | ⟨0, _⟩ => rfl
  | ⟨1, _⟩ => rfl

/-- A sum along the lanes of a block, read at row `r`, is the sum of the 128 entries of row `r`. -/
theorem rowSum_apply (Y : FVec Ideal S4000x128 .f32) (h : S4000x128.Reduces [1] S4000) (hφ : FKind.Formats .f32)
    (hacc : (0x00000000#32 : BitVec 32) = FKind.add.neutral .f32 hφ) (r : Fin 4000) (o : Row)
    (hY : ∀ l, Y (ix2 r l) = o l) :
    multiReduction .add [1] S4000 Y 0x00000000#32 h hφ hacc (ix1 r) = ∑ l : Fin 128, o l := by
  refine (Ideal.multiReduction_add_single Y _ h hφ hacc (ix1 r)).trans ?_
  exact Finset.sum_congr rfl fun l _ => (congrArg Y (lift_row h r l)).trans (hY l)

/-- A per-row number over a constant, cast to a column and broadcast back across the lanes, reads the same quotient
    at every column of row `r`. -/
theorem col_apply (Z : FVec Ideal S4000 .f32) (c : Ideal .f32) (hc : S4000.ShapeCasts S4000x1)
    (hb : S4000x1.Broadcasts S4000x128) (r : Fin 4000) (l : Fin 128) :
    broadcastTo S4000x128 (divf (shapeCast S4000x1 Z hc) (broadcast S4000x1 c)) hb (ix2 r l) = Ideal.div (Z (ix1 r)) c := by
  refine (broadcastTo_apply _ _ (ix2 r l) (ix2 r 0) (fun a => ?_)).trans ?_
  · match a with
    | ⟨0, _⟩ => show r.val = (if (4000 : Nat) = 1 then 0 else r.val); rw [if_neg (by decide)]
    | ⟨1, _⟩ => show 0 = (if (1 : Nat) = 1 then 0 else l.val); rw [if_pos rfl]
  · exact congrArg (Ideal.div · c) (shapeCast_apply Z hc (ix2 r 0) (ix1 r)
      (by rw [Shape.rowMajor_val_one, Shape.rowMajor_val_two]; show r.val = r.val * 1 + 0; omega))

/-- The mean of each row of a block, broadcast back across the lanes. -/
abbrev meanV (Y : FVec Ideal S4000x128 .f32) (h : S4000x128.Reduces [1] S4000) (hφ : FKind.Formats .f32)
    (hacc : (0x00000000#32 : BitVec 32) = FKind.add.neutral .f32 hφ) (hc : S4000.ShapeCasts S4000x1)
    (hb : S4000x1.Broadcasts S4000x128) : FVec Ideal S4000x128 .f32 :=
  broadcastTo S4000x128 (divf (shapeCast S4000x1 (multiReduction .add [1] S4000 Y 0x00000000#32 h hφ hacc) hc)
    (broadcast S4000x1 (Scalar.ofBits .f32 0x43000000#32))) hb

/-- The normalisation of a block whose row `r` is `o`, at column `j` (`z` the block's entry there, `gj` and `bj` the
    scale and the shift there): the centred entry over the root of the row's variance plus epsilon, scaled and
    shifted. -/
theorem norm_apply (Y : FVec Ideal S4000x128 .f32) (h : S4000x128.Reduces [1] S4000) (hφ : FKind.Formats .f32)
    (hacc : (0x00000000#32 : BitVec 32) = FKind.add.neutral .f32 hφ) (hc : S4000.ShapeCasts S4000x1)
    (hb : S4000x1.Broadcasts S4000x128) (r : Fin 4000) (o : Row) (hY : ∀ l, Y (ix2 r l) = o l)
    (z gj bj : Ideal .f32) (j : Fin 128) (hz : z = o j) :
    FloatOps.addf (FloatOps.mulf (FloatOps.mulf
        (FloatOps.subf z (FloatOps.divf (multiReduction .add [1] S4000 Y 0x00000000#32 h hφ hacc (ix1 r)) (Scalar.ofBits .f32 0x43000000#32)))
        (FloatOps.rsqrt (FloatOps.addf (FloatOps.divf
          (multiReduction .add [1] S4000 (mulf (subf Y (meanV Y h hφ hacc hc hb)) (subf Y (meanV Y h hφ hacc hc hb))) 0x00000000#32 h hφ hacc (ix1 r))
          (Scalar.ofBits .f32 0x43000000#32)) (Scalar.ofBits .f32 0x3727C5AC#32)))) gj) bj
      = centred o j * Ideal.rsqrt (variance o + Ideal.ofBits .f32 0x3727C5AC#32) * gj + bj := by
  have hm : multiReduction .add [1] S4000 Y 0x00000000#32 h hφ hacc (ix1 r) = ∑ l, o l := rowSum_apply Y h hφ hacc r o hY
  have hmean : ∀ l, meanV Y h hφ hacc hc hb (ix2 r l) = mean o := fun l =>
    (col_apply _ _ hc hb r l).trans (congrArg (Ideal.div · (Ideal.ofBits .f32 0x43000000#32)) hm)
  have hv : multiReduction .add [1] S4000 (mulf (subf Y (meanV Y h hφ hacc hc hb)) (subf Y (meanV Y h hφ hacc hc hb))) 0x00000000#32 h hφ hacc (ix1 r)
      = ∑ l, centred o l * centred o l :=
    rowSum_apply _ h hφ hacc r (fun l => centred o l * centred o l) fun l => by
      show (Y (ix2 r l) - meanV Y h hφ hacc hc hb (ix2 r l)) * (Y (ix2 r l) - meanV Y h hφ hacc hc hb (ix2 r l)) = _
      rw [hmean l, hY l]; rfl
  subst hz
  rw [hm, hv]
  rfl

/-- Row `r` of the block the body stores, at column `j`, is the node update of row `r` of the node block and row `r`
    of the aggregated block. -/
theorem block_row (P0 P1 : Vec Ideal S4000x128 .f32) (P2 P3 : Vec Ideal S128x128 .f32) (P4 : Vec Ideal S1x128 .f32)
    (P5 : Vec Ideal S128x128 .f32) (P6 : Vec Ideal S1x128 .f32) (P7 : Vec Ideal S128x128 .f32)
    (P8 P9 P10 : Vec Ideal S1x128 .f32) (r : Fin 4000) (j : Fin 128) :
    E11 P0 P1 P2 P3 P4 P5 P6 P7 P8 P9 P10 (ix2 r j)
      = update (matOf P2) (matOf P3) (matOf P5) (matOf P7) (biasOf P4) (biasOf P6) (biasOf P8) (biasOf P9) (biasOf P10)
          (rowOf P0 r) (rowOf P1 r) j := by
  have i0 : ix11_0 (ix2 r j) = ix2 r j := by
    funext a; apply Fin.ext; match a with | ⟨0, _⟩ => rfl | ⟨1, _⟩ => rfl
  have i1 : ix11_1 (ix2 r j) = ix2 0 j := by
    funext a; apply Fin.ext; match a with | ⟨0, _⟩ => rfl | ⟨1, _⟩ => rfl
  have i2 : ix11_2 (ix2 r j) = ix1 r := by
    funext a; apply Fin.ext; match a with | ⟨0, _⟩ => rfl
  have i3 : ix11_3 (ix2 r j) = ix1 r := by
    funext a; apply Fin.ext; match a with | ⟨0, _⟩ => rfl
  have i4 : ix11_4 (ix2 r j) = ix2 0 j := by
    funext a; apply Fin.ext; match a with | ⟨0, _⟩ => rfl | ⟨1, _⟩ => rfl
  have i5 : ix11_5 (ix2 r j) = ix2 0 j := by
    funext a; apply Fin.ext; match a with | ⟨0, _⟩ => rfl | ⟨1, _⟩ => rfl
  dsimp only [E11]
  rw [i0, i1, i2, i3, i4, i5]
  exact norm_apply _ _ _ _ _ _ r
    (affine (matOf P7) (biasOf P8) (relu (affine (matOf P5) (biasOf P6)
      (relu (affinePair (matOf P2) (matOf P3) (biasOf P4) (rowOf P0 r) (rowOf P1 r))))))
    (fun l => congrArg₂ (· + ·) (hidden_apply P0 P1 P2 P3 P4 P5 P6 P7 r l) (bias_apply P8 _ _ r l))
    _ _ _ j (congrArg (· + P8 (ix2 0 j)) (hidden_apply P0 P1 P2 P3 P4 P5 P6 P7 r j))

end Cert.KernelIdeal.RowValue

end
-- ==== Proof.KernelArray.lean ====
/-
  What the kernel's call is handed at each of its 25 grid points, at the ideal values.

  Before the call the host builds, from the arguments: the aggregated edge features (a scatter-add of the edge rows
  onto their target nodes, kept here as the array it leaves, whatever it holds), the upper and the lower half of the
  first weight matrix, and each of the five vectors as an array of one row. At point `t` the call is handed rows
  4000 t to 4000 t + 3999 of the node features and of the aggregated features, and the whole of every other array.
-/
import proofs.«128939_j38345468018711_1_alg».proof.Proof.Gen.KernelIdeal.Value
import proofs.«128939_j38345468018711_1_alg».proof.Proof.NodeUpdate
import proofs.«128939_j38345468018711_1_alg».proof.Proof.KernelRow
import Idealize.ShloMosaic.Lib.Pipeline.Value
import Idealize.ShloMosaic.Lib.ValueIdx
import Idealize.ShloMosaic.Lib.StableHlo.Run

noncomputable section

open scoped BigOperators

namespace Cert.KernelIdeal.ArrayValue

open Cert.KernelIdeal Cert.KernelIdeal.Gen Cert.KernelIdeal.Value
open Idealize.ShloMosaic Idealize.ShloMosaic.TcCoe Idealize.SL.Sem Idealize.ShloMosaic.StableHlo
open Idealize.ShloMosaic.ValueIdx Cert.NodeUpdate

variable (m : (ℓ : Loc nD τ sig) → Buf (Elt Ideal) ℓ) (ρ : Dev nD → PrngReg)

/-! ## What the host hands the call -/

theorem V_upper (c : Dev nD) : (V m c main_v5 : S128x128.Idx → EReal)
    = extractStridedSlice S128x128 ![0, 0] (m ((c : Thread nD τ).loc main_arg3)) slices_S256x128_S128x128_0_0 := by
  dsimp only [V, hostOps0]; after_results
theorem V_lower (c : Dev nD) : (V m c main_v6 : S128x128.Idx → EReal)
    = extractStridedSlice S128x128 ![128, 0] (m ((c : Thread nD τ).loc main_arg3)) slices_S256x128_S128x128_128_0 := by
  dsimp only [V, hostOps0]; after_results
theorem V_b0 (c : Dev nD) : (V m c main_v7 : S1x128.Idx → EReal)
    = broadcastInDim S1x128 ![1] bcast_S128_S1x128_1 (m ((c : Thread nD τ).loc main_arg4)) := by
  dsimp only [V, hostOps0]; after_results
theorem V_b1 (c : Dev nD) : (V m c main_v8 : S1x128.Idx → EReal)
    = broadcastInDim S1x128 ![1] bcast_S128_S1x128_1 (m ((c : Thread nD τ).loc main_arg6)) := by
  dsimp only [V, hostOps0]; after_results
theorem V_b2 (c : Dev nD) : (V m c main_v9 : S1x128.Idx → EReal)
    = broadcastInDim S1x128 ![1] bcast_S128_S1x128_1 (m ((c : Thread nD τ).loc main_arg8)) := by
  dsimp only [V, hostOps0]; after_results
theorem V_scale (c : Dev nD) : (V m c main_v10 : S1x128.Idx → EReal)
    = broadcastInDim S1x128 ![1] bcast_S128_S1x128_1 (m ((c : Thread nD τ).loc main_arg9)) := by
  dsimp only [V, hostOps0]; after_results
theorem V_shift (c : Dev nD) : (V m c main_v11 : S1x128.Idx → EReal)
    = broadcastInDim S1x128 ![1] bcast_S128_S1x128_1 (m ((c : Thread nD τ).loc main_arg10)) := by
  dsimp only [V, hostOps0]; after_results

/-- Rows 0 to 127 sliced out of the 256-row matrix are its upper half. -/
theorem upper_read (W : S256x128.Idx → EReal) (h : S256x128.Slices ![0, 0] S128x128) :
    matOf (extractStridedSlice S128x128 ![0, 0] W h) = upperOf W := by
  funext k j
  exact extractStridedSlice_apply ![0, 0] W h (ix2 k j) (ix2 (Fin.castAdd 128 k) j) (fun a => match a with
    | ⟨0, _⟩ => by show k.val = 0 + k.val; omega
    | ⟨1, _⟩ => by show j.val = 0 + j.val; omega)

/-- Rows 128 to 255 sliced out of it are its lower half. -/
theorem lower_read (W : S256x128.Idx → EReal) (h : S256x128.Slices ![128, 0] S128x128) :
    matOf (extractStridedSlice S128x128 ![128, 0] W h) = lowerOf W := by
  funext k j
  exact extractStridedSlice_apply ![128, 0] W h (ix2 k j) (ix2 (Fin.natAdd 128 k) j) (fun a => match a with
    | ⟨0, _⟩ => by show 128 + k.val = 128 + k.val; omega
    | ⟨1, _⟩ => by show j.val = 0 + j.val; omega)

/-- A vector laid out as an array of one row reads, in that row, the vector. -/
theorem row_read (b : S128.Idx → EReal) (h : S128.BroadcastsInDim S1x128 ![1]) :
    biasOf (broadcastInDim S1x128 ![1] h b) = vecOf b := by
  funext j
  exact broadcastInDim_apply _ h b (ix2 0 j) (ix1 j) (fun a => match a with
    | ⟨0, _⟩ => by show j.val = if (128 : Nat) = 1 then 0 else j.val; rw [if_neg (by decide)])

/-! ## The index maps over the grid -/

theorem hz : (![0, 0] : Fin 2 → Nat) = fun _ => 0 := funext fun a => by fin_cases a <;> rfl

/-- Decided over the 25 points: the two row-tiled inputs move with the output, whose block index is the point's
    number on the row axis and zero on the feature axis; every other window stays at block (0, 0). -/
theorem idx_facts : ∀ t : Fin cfg0.N,
    win0_11.index t (0 : Fin 2) = t.val ∧ win0_11.index t (1 : Fin 2) = 0
    ∧ win0_0.index t (0 : Fin 2) = win0_11.index t (0 : Fin 2) ∧ win0_0.index t (1 : Fin 2) = 0
    ∧ win0_1.index t (0 : Fin 2) = win0_11.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-! ## Each window's block at a point -/

/-- The upper weight half is handed over whole at every point. -/
theorem blk2 (c : Dev nD) (t : Fin cfg0.N) : matOf (iblk m c 2 t) = upperOf (m ((c : Thread nD τ).loc main_arg3)) := by
  obtain ⟨-, -, -, -, -, -, e0, e1, -⟩ := idx_facts t
  have : (iblk m c 2 t : S128x128.Idx → EReal) = V m c main_v5 := by
    funext y
    show V m c main_v5 (((cfg0.win 2).blk t).view.emb y) = V m c main_v5 y
    refine congrArg (V m c main_v5) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  rw [this, V_upper]; exact upper_read _ _

end Cert.KernelIdeal.ArrayValue

end
-- ==== Proof.KernelBlocks.lean ====
/-
  Each window's block at a grid point, as part of the array it is cut from, at the ideal values.

  Nine of the eleven input windows are handed to the call whole at every point (block index (0, 0)): the two halves
  of the first weight matrix, the other two weight matrices, and the five one-row arrays. The two row-tiled windows,
  the node features and the aggregated edge features, are handed over 4000 rows at a time: at point `t`, row `r` of
  the block is row 4000 t + r of the array.

  The aggregated edge features are a scatter-add of 1600000 edge rows. Nothing here depends on what that array
  holds, only on its being one fixed array that both the blocks and the final result read, so it is named once
  (`aggr`) and never opened: every fact about its blocks is stated for an arbitrary array first.
-/
import proofs.«128939_j38345468018711_1_alg».proof.Proof.KernelArray

noncomputable section

open scoped BigOperators

namespace Cert.KernelIdeal.ArrayValue

open Cert.KernelIdeal Cert.KernelIdeal.Gen Cert.KernelIdeal.Value
open Idealize.ShloMosaic Idealize.ShloMosaic.TcCoe Idealize.SL.Sem Idealize.ShloMosaic.StableHlo
open Idealize.ShloMosaic.ValueIdx Cert.NodeUpdate

variable (m : (ℓ : Loc nD τ sig) → Buf (Elt Ideal) ℓ) (ρ : Dev nD → PrngReg)

/-- The lower weight half likewise. -/
theorem blk3 (c : Dev nD) (t : Fin cfg0.N) : matOf (iblk m c 3 t) = lowerOf (m ((c : Thread nD τ).loc main_arg3)) := by
  obtain ⟨-, -, -, -, -, -, -, -, e0, e1, -⟩ := idx_facts t
  have : (iblk m c 3 t : S128x128.Idx → EReal) = V m c main_v6 := by
    funext y
    show V m c main_v6 (((cfg0.win 3).blk t).view.emb y) = V m c main_v6 y
    refine congrArg (V m c main_v6) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  rw [this, V_lower]; exact lower_read _ _

/-- The second weight matrix, an argument the call reads directly, is handed over whole. -/
theorem blk5 (c : Dev nD) (t : Fin cfg0.N) : matOf (iblk m c 5 t) = matOf (m ((c : Thread nD τ).loc main_arg5)) := by
  obtain ⟨-, -, -, -, -, -, -, -, -, -, -, -, e0, e1, -⟩ := idx_facts t
  have : (iblk m c 5 t : S128x128.Idx → EReal) = m ((c : Thread nD τ).loc main_arg5) := by
    funext y
    show V m c main_arg5 (((cfg0.win 5).blk t).view.emb y) = m ((c : Thread nD τ).loc main_arg5) y
    refine (congrFun (V_main_arg5 m c) _).trans (congrArg (m ((c : Thread nD τ).loc main_arg5)) (funext fun a => Fin.ext ?_))
    match a with
    | ⟨0, _⟩ => show win0_5.index t (0 : Fin 2) * 128 + 1 * (y 0).val = (y 0).val; omega
    | ⟨1, _⟩ => show win0_5.index t (1 : Fin 2) * 128 + 1 * (y 1).val = (y 1).val; omega
  rw [this]

/-- The third weight matrix likewise. -/
theorem blk7 (c : Dev nD) (t : Fin cfg0.N) : matOf (iblk m c 7 t) = matOf (m ((c : Thread nD τ).loc main_arg7)) := by
  obtain ⟨-, -, -, -, -, -, -, -, -, -, -, -, -, -, -, -, e0, e1, -⟩ := idx_facts t
  have : (iblk m c 7 t : S128x128.Idx → EReal) = m ((c : Thread nD τ).loc main_arg7) := by
    funext y
    show V m c main_arg7 (((cfg0.win 7).blk t).view.emb y) = m ((c : Thread nD τ).loc main_arg7) y
    refine (congrFun (V_main_arg7 m c) _).trans (congrArg (m ((c : Thread nD τ).loc main_arg7)) (funext fun a => Fin.ext ?_))
    match a with
    | ⟨0, _⟩ => show win0_7.index t (0 : Fin 2) * 128 + 1 * (y 0).val = (y 0).val; omega
    | ⟨1, _⟩ => show win0_7.index t (1 : Fin 2) * 128 + 1 * (y 1).val = (y 1).val; omega
  rw [this]

/-- The first bias, as its one-row array, is handed over whole. -/
theorem blk4 (c : Dev nD) (t : Fin cfg0.N) : biasOf (iblk m c 4 t) = vecOf (m ((c : Thread nD τ).loc main_arg4)) := by
  obtain ⟨-, -, -, -, -, -, -, -, -, -, e0, e1, -⟩ := idx_facts t
  have : (iblk m c 4 t : S1x128.Idx → EReal) = V m c main_v7 := by
    funext y
    show V m c main_v7 (((cfg0.win 4).blk t).view.emb y) = V m c main_v7 y
    refine congrArg (V m c main_v7) (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  rw [this, V_b0]; exact row_read _ _

/-- The second bias likewise. -/
theorem blk6 (c : Dev nD) (t : Fin cfg0.N) : biasOf (iblk m c 6 t) = vecOf (m ((c : Thread nD τ).loc main_arg6)) := by
  obtain ⟨-, -, -, -, -, -, -, -, -, -, -, -, -, -, e0, e1, -⟩ := idx_facts t
  have : (iblk m c 6 t : S1x128.Idx → EReal) = V m c main_v8 := by
    funext y
    show V m c main_v8 (((cfg0.win 6).blk t).view.emb y) = V m c main_v8 y
    refine congrArg (V m c main_v8) (funext fun a => Fin.ext ?_)
    match a with
    | ⟨0, _⟩ => show win0_6.index t (0 : Fin 2) * 1 + 1 * (y 0).val = (y 0).val; omega
    | ⟨1, _⟩ => show win0_6.index t (1 : Fin 2) * 128 + 1 * (y 1).val = (y 1).val; omega
  rw [this, V_b1]; exact row_read _ _

/-- The third bias likewise. -/
theorem blk8 (c : Dev nD) (t : Fin cfg0.N) : biasOf (iblk m c 8 t) = vecOf (m ((c : Thread nD τ).loc main_arg8)) := by
  obtain ⟨-, -, -, -, -, -, -, -, -, -, -, -, -, -, -, -, -, -, e0, e1, -⟩ := idx_facts t
  have : (iblk m c 8 t : S1x128.Idx → EReal) = V m c main_v9 := by
    funext y
    show V m c main_v9 (((cfg0.win 8).blk t).view.emb y) = V m c main_v9 y
    refine congrArg (V m c main_v9) (funext fun a => Fin.ext ?_)
    match a with
    | ⟨0, _⟩ => show win0_8.index t (0 : Fin 2) * 1 + 1 * (y 0).val = (y 0).val; omega
    | ⟨1, _⟩ => show win0_8.index t (1 : Fin 2) * 128 + 1 * (y 1).val = (y 1).val; omega
  rw [this, V_b2]; exact row_read _ _

/-- The normalisation's scale likewise. -/
theorem blk9 (c : Dev nD) (t : Fin cfg0.N) : biasOf (iblk m c 9 t) = vecOf (m ((c : Thread nD τ).loc main_arg9)) := by
  obtain ⟨-, -, -, -, -, -, -, -, -, -, -, -, -, -, -, -, -, -, -, -, e0, e1, -⟩ := idx_facts t
  have : (iblk m c 9 t : S1x128.Idx → EReal) = V m c main_v10 := by
    funext y
    show V m c main_v10 (((cfg0.win 9).blk t).view.emb y) = V m c main_v10 y
    refine congrArg (V m c main_v10) (funext fun a => Fin.ext ?_)
    match a with
    | ⟨0, _⟩ => show win0_9.index t (0 : Fin 2) * 1 + 1 * (y 0).val = (y 0).val; omega
    | ⟨1, _⟩ => show win0_9.index t (1 : Fin 2) * 128 + 1 * (y 1).val = (y 1).val; omega
  rw [this, V_scale]; exact row_read _ _

/-- The normalisation's shift likewise. -/
theorem blk10 (c : Dev nD) (t : Fin cfg0.N) : biasOf (iblk m c 10 t) = vecOf (m ((c : Thread nD τ).loc main_arg10)) := by
  obtain ⟨-, -, -, -, -, -, -, -, -, -, -, -, -, -, -, -, -, -, -, -, -, -, e0, e1⟩ := idx_facts t
  have : (iblk m c 10 t : S1x128.Idx → EReal) = V m c main_v11 := by
    funext y
    show V m c main_v11 (((cfg0.win 10).blk t).view.emb y) = V m c main_v11 y
    refine congrArg (V m c main_v11) (funext fun a => Fin.ext ?_)
    match a with
    | ⟨0, _⟩ => show win0_10.index t (0 : Fin 2) * 1 + 1 * (y 0).val = (y 0).val; omega
    | ⟨1, _⟩ => show win0_10.index t (1 : Fin 2) * 128 + 1 * (y 1).val = (y 1).val; omega
  rw [this, V_shift]; exact row_read _ _

/-! ## The two row-tiled windows and the output -/

/-- Decided over the 25 points: on the row axis the block index of each row-tiled window, and of the output, is the
    point's own number; on the feature axis it is zero. -/
theorem tile_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_11.index t (0 : Fin 2) = t.val ∧ win0_11.index t (1 : Fin 2) = 0 :=
  (by decide +kernel : ∀ t : Fin grid0.N, _)

/-- The aggregated edge features, as the host leaves them before the call. -/
@[irreducible] def aggr (c : Dev nD) : S100000x128.Idx → EReal := V m c main_v4
theorem aggr_def (c : Dev nD) : aggr m c = V m c main_v4 := by unfold aggr; rfl

/-- Of ANY array of node rows: row `r` of the first row-tiled window's block at point `t` is row 4000 t + r. -/
theorem rows_of_tile0 (A : S100000x128.Idx → EReal) (t : Fin cfg0.N) (r : Fin 4000) (R : Fin 100000)
    (hR : R.val = t.val * 4000 + r.val) :
    rowOf (n := 4000) (((cfg0.win 0).blk t).view.read (Elt Ideal) A) r = rowOf (n := 100000) A R := by
  obtain ⟨e0, e1, -⟩ := tile_facts t
  funext k
  show A (((cfg0.win 0).blk t).view.emb (ix2 r k)) = A (ix2 R k)
  refine congrArg A (funext fun a => Fin.ext ?_)
  match a with
  | ⟨0, _⟩ => show win0_0.index t (0 : Fin 2) * 4000 + 1 * r.val = R.val; rw [e0, hR]; omega
  | ⟨1, _⟩ => show win0_0.index t (1 : Fin 2) * 128 + 1 * k.val = k.val; rw [e1]; omega

/-- The same of the second row-tiled window. -/
theorem rows_of_tile1 (A : S100000x128.Idx → EReal) (t : Fin cfg0.N) (r : Fin 4000) (R : Fin 100000)
    (hR : R.val = t.val * 4000 + r.val) :
    rowOf (n := 4000) (((cfg0.win 1).blk t).view.read (Elt Ideal) A) r = rowOf (n := 100000) A R := by
  obtain ⟨-, -, e0, e1, -⟩ := tile_facts t
  funext k
  show A (((cfg0.win 1).blk t).view.emb (ix2 r k)) = A (ix2 R k)
  refine congrArg A (funext fun a => Fin.ext ?_)
  match a with
  | ⟨0, _⟩ => show win0_1.index t (0 : Fin 2) * 4000 + 1 * r.val = R.val; rw [e0, hR]; omega
  | ⟨1, _⟩ => show win0_1.index t (1 : Fin 2) * 128 + 1 * k.val = k.val; rw [e1]; omega

/-- Row `r` of the node block at point `t` is row 4000 t + r of the node features. -/
theorem blk0 (c : Dev nD) (t : Fin cfg0.N) (r : Fin 4000) (R : Fin 100000) (hR : R.val = t.val * 4000 + r.val) :
    rowOf (n := 4000) (iblk m c 0 t) r = rowOf (n := 100000) (m ((c : Thread nD τ).loc main_arg0)) R := by
  rw [← V_main_arg0 m c]; exact rows_of_tile0 (V m c main_arg0) t r R hR

/-- Row `r` of the aggregated block at point `t` is row 4000 t + r of the aggregated edge features. -/
theorem blk1 (c : Dev nD) (t : Fin cfg0.N) (r : Fin 4000) (R : Fin 100000) (hR : R.val = t.val * 4000 + r.val) :
    rowOf (n := 4000) (iblk m c 1 t) r = rowOf (n := 100000) (aggr m c) R := by
  rw [aggr_def]; exact rows_of_tile1 (V m c main_v4) t r R hR

end Cert.KernelIdeal.ArrayValue

end
-- ==== Proof.KernelResult.lean ====
/-
  The kernel's result array as one function of the argument arrays, at the ideal values.

  A row of what the call writes at a point is the node update of the matching rows of its two row-tiled inputs (the
  row-by-row reading of the body), every other operand being the same whole array at every point. Point `t` writes
  rows 4000 t to 4000 t + 3999, row `R` of the result lies in the block of point `R / 4000`, and the 25 blocks
  tile the 100000 rows; so after the run the result array is `updateAll` of the node features, the aggregated edge
  features and the weights: every node updated.
-/
import proofs.«128939_j38345468018711_1_alg».proof.Proof.KernelBlocks

noncomputable section

open scoped BigOperators

namespace Cert.KernelIdeal.ArrayValue

open Cert.KernelIdeal Cert.KernelIdeal.Gen Cert.KernelIdeal.Value
open Idealize.ShloMosaic Idealize.ShloMosaic.TcCoe Idealize.SL.Sem Idealize.ShloMosaic.StableHlo
open Idealize.ShloMosaic.ValueIdx Cert.NodeUpdate
open Idealize.ShloMosaic.Pipeline (Dat)

variable (m : (ℓ : Loc nD τ sig) → Buf (Elt Ideal) ℓ) (ρ : Dev nD → PrngReg)

/-- The result: every node updated, from the argument arrays and the aggregated edge features the host left. -/
def result (c : Dev nD) : S100000x128.Idx → EReal :=
  updateAll (m ((c : Thread nD τ).loc main_arg0)) (aggr m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The update depends on its eleven operands and its coordinate only through their values. -/
theorem update_congr {Wx Wx' Wa Wa' W1 W1' W2 W2' : Mat} {b0 b0' b1 b1' b2 b2' g g' b b' x x' a a' : Row} {j j' : Fin 128}
    (h1 : Wx = Wx') (h2 : Wa = Wa') (h3 : W1 = W1') (h4 : W2 = W2') (h5 : b0 = b0') (h6 : b1 = b1') (h7 : b2 = b2')
    (h8 : g = g') (h9 : b = b') (h10 : x = x') (h11 : a = a') (h12 : j = j') :
    update Wx Wa W1 W2 b0 b1 b2 g b x a j = update Wx' Wa' W1' W2' b0' b1' b2' g' b' x' a' j' := by
  subst h1 h2 h3 h4 h5 h6 h7 h8 h9 h10 h11 h12; rfl

/-- What the body leaves at entry `y` of the output block, of ANY eleven operand blocks: the node update of row
    `y 0` of the first two, at coordinate `y 1`. -/
theorem out_value (P0 P1 : Vec Ideal S4000x128 .f32) (P2 P3 : Vec Ideal S128x128 .f32) (P4 : Vec Ideal S1x128 .f32)
    (P5 : Vec Ideal S128x128 .f32) (P6 : Vec Ideal S1x128 .f32) (P7 : Vec Ideal S128x128 .f32)
    (P8 P9 P10 : Vec Ideal S1x128 .f32) (y : S4000x128.Idx) :
    out0_11 P0 P1 P2 P3 P4 P5 P6 P7 P8 P9 P10 y
      = update (matOf P2) (matOf P3) (matOf P5) (matOf P7) (biasOf P4) (biasOf P6) (biasOf P8) (biasOf P9) (biasOf P10)
          (rowOf (n := 4000) P0 (y 0)) (rowOf (n := 4000) P1 (y 0)) (y 1) := by
  unfold out0_11
  simp only [View.ld_unit_zero (S := S4000x128) hz, View.ld_unit_zero (S := S128x128) hz, View.ld_unit_zero (S := S1x128) hz]
  refine (canon11_eq P0 P1 P2 P3 P4 P5 P6 P7 P8 P9 P10 y).trans ?_
  exact (congrArg (E11 P0 P1 P2 P3 P4 P5 P6 P7 P8 P9 P10) (eq_ix2 y)).trans
    (RowValue.block_row P0 P1 P2 P3 P4 P5 P6 P7 P8 P9 P10 (y 0) (y 1))

/-- What point `t` leaves at entry `y` of its block is the result at row 4000 t + (y's row), the same column. -/
theorem point_value (c : Dev nD) (t : Fin cfg0.N) (y : S4000x128.Idx) (i : S100000x128.Idx)
    (h0 : (i 0).val = t.val * 4000 + (y 0).val) (h1 : (i 1).val = (y 1).val) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y = result m c i := by
  refine (out_value (iblk m c 0 t) (iblk m c 1 t) (iblk m c 2 t) (iblk m c 3 t) (iblk m c 4 t) (iblk m c 5 t) (iblk m c 6 t) (iblk m c 7 t) (iblk m c 8 t) (iblk m c 9 t) (iblk m c 10 t) y).trans ?_
  exact update_congr (blk2 m c t) (blk3 m c t) (blk5 m c t) (blk7 m c t) (blk4 m c t) (blk6 m c t) (blk8 m c t)
    (blk9 m c t) (blk10 m c t) (blk0 m c t (y 0) (i 0) h0) (blk1 m c t (y 0) (i 0) h0) (Fin.ext h1.symm)

/-- WHAT POINT `t` WRITES BACK is block `t` of the result. -/
theorem flushed_eq (c : Dev nD) (t : Fin cfg0.N) :
    (dats m 0 c).flushed 11 t = ((cfg0.win 11).blk t).view.read (Elt Ideal) (result m c) := by
  rw [flushed11]
  obtain ⟨-, -, -, -, e0, e1⟩ := tile_facts t
  funext y
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y = result m c (((cfg0.win 11).blk t).view.emb y)
  refine point_value m c t y _ ?_ ?_
  · show win0_11.index t (0 : Fin 2) * 4000 + 1 * (y 0).val = t.val * 4000 + (y 0).val; rw [e0]; omega
  · show win0_11.index t (1 : Fin 2) * 128 + 1 * (y 1).val = (y 1).val; rw [e1]; omega

/-- An index of the result is in point `t`'s block iff each coordinate is in the block's range on its axis. -/
theorem mem_blk (t : Fin cfg0.N) (i : S100000x128.Idx) :
    i ∈ ((cfg0.win 11).blk t).view.set ↔ ∀ a : Fin 2, win0_11.index t a * S4000x128.size a ≤ (i a).val
      ∧ (i a).val < win0_11.index t a * S4000x128.size a + S4000x128.size a := by
  show i ∈ ((View.whole main_v12).slice (win0_11.rect t)).set ↔ _
  rw [View.set_slice_whole, Rect.mem_set_unit]
  exact Iff.rfl

/-- Every index of the result is in some point's block: row `R` in the block of point `R / 4000`. -/
theorem cover (i : S100000x128.Idx) :
    ∃ t : Fin cfg0.N, (cfg0.win 11).flush t = true ∧ i ∈ ((cfg0.win 11).blk t).view.set := by
  have hi0 : (i 0).val < 100000 := (i 0).isLt
  have hi1 : (i 1).val < 128 := (i 1).isLt
  have hN : (i 0).val / 4000 < cfg0.N := by show (i 0).val / 4000 < grid0.N; rw [N_0]; omega
  obtain ⟨-, -, -, -, e0, e1⟩ := tile_facts ⟨(i 0).val / 4000, hN⟩
  refine ⟨⟨(i 0).val / 4000, hN⟩, flush0_11 _, ?_⟩
  rw [mem_blk]
  intro a
  match a with
  | ⟨0, _⟩ =>
    show win0_11.index ⟨(i 0).val / 4000, hN⟩ (0 : Fin 2) * 4000 ≤ (i 0).val
      ∧ (i 0).val < win0_11.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win0_11.index ⟨(i 0).val / 4000, hN⟩ (1 : Fin 2) * 128 ≤ (i 1).val
      ∧ (i 1).val < win0_11.index ⟨(i 0).val / 4000, hN⟩ (1 : Fin 2) * 128 + 128
    rw [e1]; omega

/-- THE RESULT ARRAY after the run: every node updated. -/
theorem final (c : Dev nD) : (dats m 0 c).arrAt 11 cfg0.N = result m c :=
  (dats m 0 c).arrAt_eq_of_cover 11 (result m c) (fun t _ => flushed_eq m c t) cover

/-- The kernel's run: it terminates without a fault, its result array holds `result`, its arguments are unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (run_blocks m ρ)

end Cert.KernelIdeal.ArrayValue

end
-- ==== Proof.RefValue.lean ====
/-
  The reference's result as one function of its arguments, at the ideal values.

  The reference lays each node's own row and its aggregated row end to end into one row of 256 coordinates and
  multiplies it by the whole 256-row weight matrix. Read at an entry, that product is a sum over 256 coordinates; its
  first 128 terms pair the node's row with the matrix's upper half and its last 128 pair the aggregated row with the
  lower half, so the sum is the two products added (`sum_halves`). Everything after it is, stage by stage, the node
  update's own text: the bias, the rectifier (the larger of the entry and zero), two more dense layers, the row's
  mean and variance as sums over 128 divided by 128, and the normalised entry scaled and shifted. The aggregated
  edge features are whatever the reference's own scatter-add leaves; they are never opened.
-/
import proofs.«128939_j38345468018711_1_alg».proof.Proof.Gen.ReferenceIdeal.Read
import proofs.«128939_j38345468018711_1_alg».proof.Proof.NodeUpdate
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Read
open Idealize.ShloMosaic Idealize.ShloMosaic.ValueIdx Cert.NodeUpdate

/-! ## The concatenation read on each half -/

theorem concat_left (X A : S100000x128.Idx → EReal) (h : Shape.Concatenates [S100000x128, S100000x128] S100000x256 1)
    (R : Fin 100000) (k : Fin 128) :
    concatenate S100000x256 1 [⟨S100000x128, X⟩, ⟨S100000x128, A⟩] h (ix2 R (Fin.castAdd 128 k)) = X (ix2 R k) :=
  concatenate_pair_apply_left 1 X A h (ix2 R (Fin.castAdd 128 k)) rfl (ix2 R k)
    (fun b => match b with | ⟨0, _⟩ => rfl | ⟨1, _⟩ => rfl)

theorem concat_right (X A : S100000x128.Idx → EReal) (h : Shape.Concatenates [S100000x128, S100000x128] S100000x256 1)
    (R : Fin 100000) (k : Fin 128) :
    concatenate S100000x256 1 [⟨S100000x128, X⟩, ⟨S100000x128, A⟩] h (ix2 R (Fin.natAdd 128 k)) = A (ix2 R k) :=
  concatenate_pair_apply_right 1 X A h (ix2 R (Fin.natAdd 128 k)) rfl rfl (ix2 R k)
    (fun b hb => match b, hb with | ⟨0, _⟩, _ => rfl | ⟨1, _⟩, hb => absurd rfl hb)
    (by show k.val + 128 = 128 + k.val; omega)

section
variable (x0 : (⟨S100000x128, .f32⟩ : BufTy).Contents (Elt Ideal)) (x1 : (⟨S1600000x128, .f32⟩ : BufTy).Contents (Elt Ideal)) (x2 : (⟨S2x1600000, .i32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal))

/-- The rectified first layer of node `R`. -/
def hidden0 (R : Fin 100000) : Row :=
  relu (affinePair (upperOf x3) (lowerOf x3) (vecOf x4) (rowOf (n := 100000) x0 R) (rowOf (n := 100000) (val_main_v4 x1 x2) R))
/-- The rectified second layer of node `R`. -/
def hidden1 (R : Fin 100000) : Row := relu (affine (matOf x5) (vecOf x6) (hidden0 x0 x1 x2 x3 x4 R))
/-- The third layer of node `R`, before the normalisation. -/
def outRow (R : Fin 100000) : Row := affine (matOf x7) (vecOf x8) (hidden1 x0 x1 x2 x3 x4 x5 x6 R)

/-- The first product, over the 256 coordinates of the two rows laid end to end, is the two 128-term products
    added. -/
theorem layer0 (R : Fin 100000) (j : Fin 128) :
    val_main_v6 x0 x1 x2 x3 (ix2 R j)
      = (∑ k, rowOf (n := 100000) x0 R k * upperOf x3 k j) + ∑ k, rowOf (n := 100000) (val_main_v4 x1 x2) R k * lowerOf x3 k j := by
  rw [val_main_v6_apply, sum_halves]
  refine congrArg₂ (· + ·) (Finset.sum_congr rfl fun k _ => ?_) (Finset.sum_congr rfl fun k _ => ?_)
  · have el : lidx_main_v6 (ix2 R j) (Fin.castAdd 128 k) = ix2 R (Fin.castAdd 128 k) := by
      funext a; apply Fin.ext; match a with | ⟨0, _⟩ => rfl | ⟨1, _⟩ => rfl
    have er : ridx_main_v6 (ix2 R j) (Fin.castAdd 128 k) = ix2 (Fin.castAdd 128 k) j := by
      funext a; apply Fin.ext; match a with | ⟨0, _⟩ => rfl | ⟨1, _⟩ => rfl
    rw [el, er]; unfold val_main_v5
    exact congrArg (· * x3 (ix2 (Fin.castAdd 128 k) j)) (concat_left x0 (val_main_v4 x1 x2) _ R k)
  · have el : lidx_main_v6 (ix2 R j) (Fin.natAdd 128 k) = ix2 R (Fin.natAdd 128 k) := by
      funext a; apply Fin.ext; match a with | ⟨0, _⟩ => rfl | ⟨1, _⟩ => rfl
    have er : ridx_main_v6 (ix2 R j) (Fin.natAdd 128 k) = ix2 (Fin.natAdd 128 k) j := by
      funext a; apply Fin.ext; match a with | ⟨0, _⟩ => rfl | ⟨1, _⟩ => rfl
    rw [el, er]; unfold val_main_v5
    exact congrArg (· * x3 (ix2 (Fin.natAdd 128 k) j)) (concat_right x0 (val_main_v4 x1 x2) _ R k)

/-- A vector broadcast down the rows reads, at every row, its entry in the column. -/
theorem bias0 (R : Fin 100000) (j : Fin 128) : val_main_v8 x4 (ix2 R j) = vecOf x4 j := by
  rw [val_main_v8_apply, val_main_v7_apply]
  exact congrArg x4 (by funext a; apply Fin.ext; match a with | ⟨0, _⟩ => rfl)
theorem bias1 (R : Fin 100000) (j : Fin 128) : val_main_v13 x6 (ix2 R j) = vecOf x6 j := by
  rw [val_main_v13_apply, val_main_v12_apply]
  exact congrArg x6 (by funext a; apply Fin.ext; match a with | ⟨0, _⟩ => rfl)
theorem bias2 (R : Fin 100000) (j : Fin 128) : val_main_v18 x8 (ix2 R j) = vecOf x8 j := by
  rw [val_main_v18_apply, val_main_v17_apply]
  exact congrArg x8 (by funext a; apply Fin.ext; match a with | ⟨0, _⟩ => rfl)
theorem scale (R : Fin 100000) (j : Fin 128) : val_main_v39 x9 (ix2 R j) = vecOf x9 j := by
  rw [val_main_v39_apply, val_main_v38_apply]
  exact congrArg x9 (by funext a; apply Fin.ext; match a with | ⟨0, _⟩ => rfl)
theorem shift (R : Fin 100000) (j : Fin 128) : val_main_v42 x10 (ix2 R j) = vecOf x10 j := by
  rw [val_main_v42_apply, val_main_v41_apply]
  exact congrArg x10 (by funext a; apply Fin.ext; match a with | ⟨0, _⟩ => rfl)

/-- After the first rectifier: the rectified first layer of node `R`. -/
theorem hid0 (R : Fin 100000) (j : Fin 128) : val_main_v10 x0 x1 x2 x3 x4 (ix2 R j) = hidden0 x0 x1 x2 x3 x4 R j := by
  rw [val_main_v10_apply, val_main_v9_apply, layer0, bias0, val_main_call0_v0_apply, val_main_call0_cst_apply]
  rfl

/-- After the second rectifier. -/
theorem hid1 (R : Fin 100000) (j : Fin 128) : val_main_v15 x0 x1 x2 x3 x4 x5 x6 (ix2 R j) = hidden1 x0 x1 x2 x3 x4 x5 x6 R j := by
  rw [val_main_v15_apply, val_main_v14_apply, val_main_v11_apply, bias1, val_main_call1_v0_apply, val_main_call1_cst_apply]
  have e : ∀ k : Fin 128, val_main_v10 x0 x1 x2 x3 x4 (lidx_main_v11 (ix2 R j) k) * x5 (ridx_main_v11 (ix2 R j) k)
      = hidden0 x0 x1 x2 x3 x4 R k * matOf x5 k j := fun k => by
    have el : lidx_main_v11 (ix2 R j) k = ix2 R k := by funext a; apply Fin.ext; match a with | ⟨0, _⟩ => rfl | ⟨1, _⟩ => rfl
    have er : ridx_main_v11 (ix2 R j) k = ix2 k j := by funext a; apply Fin.ext; match a with | ⟨0, _⟩ => rfl | ⟨1, _⟩ => rfl
    rw [el, er, hid0]; rfl
  rw [Finset.sum_congr rfl fun k _ => e k]
  rfl

/-- The third layer. -/
theorem out (R : Fin 100000) (j : Fin 128) : val_main_v19 x0 x1 x2 x3 x4 x5 x6 x7 x8 (ix2 R j) = outRow x0 x1 x2 x3 x4 x5 x6 x7 x8 R j := by
  rw [val_main_v19_apply, val_main_v16_apply, bias2]
  have e : ∀ k : Fin 128, val_main_v15 x0 x1 x2 x3 x4 x5 x6 (lidx_main_v16 (ix2 R j) k) * x7 (ridx_main_v16 (ix2 R j) k)
      = hidden1 x0 x1 x2 x3 x4 x5 x6 R k * matOf x7 k j := fun k => by
    have el : lidx_main_v16 (ix2 R j) k = ix2 R k := by funext a; apply Fin.ext; match a with | ⟨0, _⟩ => rfl | ⟨1, _⟩ => rfl
    have er : ridx_main_v16 (ix2 R j) k = ix2 k j := by funext a; apply Fin.ext; match a with | ⟨0, _⟩ => rfl | ⟨1, _⟩ => rfl
    rw [el, er, hid1]; rfl
  rw [Finset.sum_congr rfl fun k _ => e k]
  rfl

/-- The sum of row `R` of the third layer: the host's sum starts from zero. -/
theorem rowSum (R : Fin 100000) : val_main_v20 x0 x1 x2 x3 x4 x5 x6 x7 x8 (ix1 R) = ∑ l, outRow x0 x1 x2 x3 x4 x5 x6 x7 x8 R l := by
  rw [val_main_v20_apply, val_main_cst_0_apply]
  have e : ∀ l : Fin 128, val_main_v19 x0 x1 x2 x3 x4 x5 x6 x7 x8 (idx_main_v20 (ix1 R) l) = outRow x0 x1 x2 x3 x4 x5 x6 x7 x8 R l := fun l => by
    have ei : idx_main_v20 (ix1 R) l = ix2 R l := by funext a; apply Fin.ext; match a with | ⟨0, _⟩ => rfl | ⟨1, _⟩ => rfl
    rw [ei, out]
  rw [Finset.sum_congr rfl fun l _ => e l]
  show Ideal.ofBits .f32 0x00000000#32 + _ = _
  rw [Ideal.ofBits_zero_f32, zero_add]

/-- The mean of row `R`. -/
theorem meanRow (R : Fin 100000) : val_main_v23 x0 x1 x2 x3 x4 x5 x6 x7 x8 (ix2 R 0) = mean (outRow x0 x1 x2 x3 x4 x5 x6 x7 x8 R) := by
  rw [val_main_v23_apply, val_main_v21_apply, val_main_v22_apply, val_main_cst_1_apply]
  have ei : idx_main_v21 (ix2 R 0) = ix1 R := by funext a; apply Fin.ext; match a with | ⟨0, _⟩ => rfl
  rw [ei, rowSum]
  rfl

/-- The centred entry. -/
theorem centredRow (R : Fin 100000) (j : Fin 128) : val_main_v25 x0 x1 x2 x3 x4 x5 x6 x7 x8 (ix2 R j) = centred (outRow x0 x1 x2 x3 x4 x5 x6 x7 x8 R) j := by
  rw [val_main_v25_apply, val_main_v24_apply, out]
  have ei : idx_main_v24 (ix2 R j) = ix2 R 0 := by funext a; apply Fin.ext; match a with | ⟨0, _⟩ => rfl | ⟨1, _⟩ => rfl
  rw [ei, meanRow]
  rfl

/-- The variance of row `R`. -/
theorem varRow (R : Fin 100000) : val_main_v30 x0 x1 x2 x3 x4 x5 x6 x7 x8 (ix2 R 0) = variance (outRow x0 x1 x2 x3 x4 x5 x6 x7 x8 R) := by
  rw [val_main_v30_apply, val_main_v28_apply, val_main_v29_apply, val_main_cst_3_apply]
  have ei : idx_main_v28 (ix2 R 0) = ix1 R := by funext a; apply Fin.ext; match a with | ⟨0, _⟩ => rfl
  rw [ei, val_main_v27_apply, val_main_cst_2_apply]
  have e : ∀ l : Fin 128, val_main_v26 x0 x1 x2 x3 x4 x5 x6 x7 x8 (idx_main_v27 (ix1 R) l)
      = centred (outRow x0 x1 x2 x3 x4 x5 x6 x7 x8 R) l * centred (outRow x0 x1 x2 x3 x4 x5 x6 x7 x8 R) l := fun l => by
    have ej : idx_main_v27 (ix1 R) l = ix2 R l := by funext a; apply Fin.ext; match a with | ⟨0, _⟩ => rfl | ⟨1, _⟩ => rfl
    rw [ej, val_main_v26_apply, centredRow]; rfl
  rw [Finset.sum_congr rfl fun l _ => e l]
  show Ideal.div (Ideal.ofBits .f32 0x00000000#32 + _) _ = _
  rw [Ideal.ofBits_zero_f32, zero_add]
  rfl

/-- The normalised entry: the reference's result at node `R`, coordinate `j`. -/
theorem finalRow (R : Fin 100000) (j : Fin 128) :
    val_main_v43 x0 x1 x2 x3 x4 x5 x6 x7 x8 x9 x10 (ix2 R j) = layerNorm (vecOf x9) (vecOf x10) (outRow x0 x1 x2 x3 x4 x5 x6 x7 x8 R) j := by
  rw [val_main_v43_apply, val_main_v40_apply, val_main_v37_apply, val_main_v32_apply, val_main_v31_apply, out, shift, scale,
    val_main_v36_apply, val_main_v35_apply, val_main_v34_apply, val_main_v33_apply, val_main_cst_4_apply]
  have e1 : idx_main_v31 (ix2 R j) = ix2 R 0 := by funext a; apply Fin.ext; match a with | ⟨0, _⟩ => rfl | ⟨1, _⟩ => rfl
  have e2 : idx_main_v36 (ix2 R j) = ix2 R 0 := by funext a; apply Fin.ext; match a with | ⟨0, _⟩ => rfl | ⟨1, _⟩ => rfl
  rw [e1, e2, meanRow, varRow]
  rfl

/-- THE REFERENCE'S RESULT is every node updated: `updateAll` of its arguments and its own aggregated edge features. -/
theorem result_eq : val_main_v43 x0 x1 x2 x3 x4 x5 x6 x7 x8 x9 x10 = updateAll x0 (val_main_v4 x1 x2) x3 x4 x5 x6 x7 x8 x9 x10 := by
  funext i
  exact (congrArg (val_main_v43 x0 x1 x2 x3 x4 x5 x6 x7 x8 x9 x10) (eq_ix2 i)).trans (finalRow x0 x1 x2 x3 x4 x5 x6 x7 x8 x9 x10 (i 0) (i 1))

end

end Cert.ReferenceIdeal.RefValue

end
-- ==== Proof.Aggregate.lean ====
/-
  The two programs aggregate the edge features alike.

  Both take row 1 of the edge index (the target node of each edge), as a column of 1600000 node numbers, and
  scatter-add the 1600000 edge rows onto a zero array of 100000 node rows, with the same scatter dimension numbers.
  On arguments that agree the two aggregated arrays are therefore one array: the same operation of the same
  operands. What that array holds plays no part.
-/
import proofs.«128939_j38345468018711_1_alg».proof.Proof.KernelResult
import proofs.«128939_j38345468018711_1_alg».proof.Proof.RefValue
import Idealize.ShloMosaic.Lib.StableHlo.Run

noncomputable section

namespace Cert.Proof.Aggregate

open Idealize.ShloMosaic Idealize.ShloMosaic.TcCoe Idealize.SL.Sem Idealize.ShloMosaic.StableHlo

/-- The kernel's aggregated edge features are the reference's, of the kernel's own edge features and edge index. -/
theorem aggr_eq (m : (ℓ : Loc Cert.KernelIdeal.nD Cert.KernelIdeal.τ Cert.KernelIdeal.sig) → Buf (Elt Ideal) ℓ)
    (c : Dev Cert.KernelIdeal.nD) :
    Cert.KernelIdeal.ArrayValue.aggr m c
      = Cert.ReferenceIdeal.Read.val_main_v4 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  rw [Cert.KernelIdeal.ArrayValue.aggr_def]
  dsimp only [Cert.KernelIdeal.Gen.V, Cert.KernelIdeal.Gen.hostOps0]
  after_results
  rfl

end Cert.Proof.Aggregate

end
-- ==== Proof.lean ====
/-
  A node update of a graph network: every node's new features from its own features and the sum of the features of
  the edges that point at it.

  Both programs first aggregate: the 1600000 edge rows are scatter-added onto their target nodes, a 100000-row array
  `A`. Then, node by node, with `x` the node's own row and `a` its row of `A`:

      h₀ = max (x · W0[0:128] + a · W0[128:256] + b0, 0)
      h₁ = max (h₀ · W1 + b1, 0)
      o  = h₁ · W2 + b2
      μ  = (Σ o) / 128,   d = o − μ,   σ² = (Σ d²) / 128
      result row = d · rsqrt (σ² + ε) · g + b

  The kernel computes this in 25 blocks of 4000 nodes, with the first layer as the two products added and its matrix
  operands rounded to sixteen bits, which at the ideal values is the identity. The reference lays `x` and `a` end to
  end and multiplies once by the whole 256-row matrix. The two agree by one law: a sum over 256 coordinates is the sum
  over the first 128 plus the sum over the last 128. That law uses only that addition on the extended reals is
  commutative and associative, so it holds at the infinities too, and the proof never opens the precondition. The
  quotient by 128, the epsilon and the inverse root are the same operations on the same constants on both sides, and
  the aggregation is the same scatter-add of the same operands, never evaluated.

  The pieces: `NodeUpdate` states the update of one node and of all nodes; `KernelRow` reads a row of the block the
  kernel's body stores; `KernelArray`, `KernelBlocks` and `KernelResult` carry that from blocks to the whole result
  array of the kernel's run; `RefValue` reads the reference's result stage by stage; `Aggregate` identifies the two
  aggregated arrays. The kernel's frames and the reference's run are the generated modules'. The idealization rewrote
  nothing, so there is nothing to preserve.
-/
import proofs.«128939_j38345468018711_1_alg».proof.Defs
import proofs.«128939_j38345468018711_1_alg».proof.Proof.Gen.Kernel
import proofs.«128939_j38345468018711_1_alg».proof.Proof.Gen.Kernel.Skeleton
import proofs.«128939_j38345468018711_1_alg».proof.Proof.Gen.Kernel.Launch
import proofs.«128939_j38345468018711_1_alg».proof.Proof.Gen.Kernel.Points
import proofs.«128939_j38345468018711_1_alg».proof.Proof.Gen.Kernel.Frame
import proofs.«128939_j38345468018711_1_alg».proof.Proof.Gen.KernelIdeal
import proofs.«128939_j38345468018711_1_alg».proof.Proof.Gen.KernelIdeal.Skeleton
import proofs.«128939_j38345468018711_1_alg».proof.Proof.Gen.KernelIdeal.Launch
import proofs.«128939_j38345468018711_1_alg».proof.Proof.Gen.KernelIdeal.Points
import proofs.«128939_j38345468018711_1_alg».proof.Proof.Gen.KernelIdeal.Frame
import proofs.«128939_j38345468018711_1_alg».proof.Proof.Gen.ReferenceIdeal
import proofs.«128939_j38345468018711_1_alg».proof.Proof.Gen.Pre_finite_inputs
import proofs.«128939_j38345468018711_1_alg».proof.Proof.Gen.KernelIdeal.Value
import proofs.«128939_j38345468018711_1_alg».proof.Proof.Gen.ReferenceIdeal.Run
import proofs.«128939_j38345468018711_1_alg».proof.Proof.Gen.ReferenceIdeal.Read
import proofs.«128939_j38345468018711_1_alg».proof.Proof.KernelResult
import proofs.«128939_j38345468018711_1_alg».proof.Proof.RefValue
import proofs.«128939_j38345468018711_1_alg».proof.Proof.Aggregate
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- At the ideal values, from memories that agree on the arguments, both programs end with every node updated:
    the kernel's result array is `updateAll` of its arguments and its aggregated edge features (the kernel's run), the
    reference's is `updateAll` of its own (the reference's run read stage by stage), and the two aggregated arrays are
    one. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v43_eq, Cert.ReferenceIdeal.RefValue.result_eq,
    h0, h1, h2, h3, h4, h5, h6, h7, h8, h9, h10]
  rw [← Cert.Proof.Aggregate.aggr_eq m c]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
